-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x16 : Shape := ⟨3, ![64, 4096, 16]⟩
abbrev S64x16x256 : Shape := ⟨3, ![64, 16, 256]⟩
abbrev S64x1x256 : Shape := ⟨3, ![64, 1, 256]⟩
abbrev S64x256x256 : Shape := ⟨3, ![64, 256, 256]⟩
abbrev S64x256x1 : Shape := ⟨3, ![64, 256, 1]⟩
abbrev S64x1x1 : Shape := ⟨3, ![64, 1, 1]⟩
abbrev S_ : Shape := ⟨0, ![]⟩

class Facts : Prop where
  bcast_S_S64x4096x16 : S_.BroadcastsInDim S64x4096x16 (![] : Fin 0 → Fin S64x4096x16.rank)
  reducesTo_S64x4096x16_S_d0_1_2 : S64x4096x16.ReducesTo [0, 1, 2] S_
  h_S_ : 0 < S_.numel
  bcast_S_S64x16x256 : S_.BroadcastsInDim S64x16x256 (![] : Fin 0 → Fin S64x16x256.rank)
  reducesTo_S64x16x256_S_d0_1_2 : S64x16x256.ReducesTo [0, 1, 2] S_
  bcast_S_S64x1x256 : S_.BroadcastsInDim S64x1x256 (![] : Fin 0 → Fin S64x1x256.rank)
  reducesTo_S64x1x256_S_d0_1_2 : S64x1x256.ReducesTo [0, 1, 2] S_
  bcast_S_S64x256x256 : S_.BroadcastsInDim S64x256x256 (![] : Fin 0 → Fin S64x256x256.rank)
  reducesTo_S64x256x256_S_d0_1_2 : S64x256x256.ReducesTo [0, 1, 2] S_
  bcast_S_S64x256x1 : S_.BroadcastsInDim S64x256x1 (![] : Fin 0 → Fin S64x256x1.rank)
  reducesTo_S64x256x1_S_d0_1_2 : S64x256x1.ReducesTo [0, 1, 2] S_
  bcast_S_S64x1x1 : S_.BroadcastsInDim S64x1x1 (![] : Fin 0 → Fin S64x1x1.rank)
  reducesTo_S64x1x1_S_d0_1_2 : S64x1x1.ReducesTo [0, 1, 2] S_

variable [Facts]

def fn_part2 {F : FTy → Type} [FloatOps F] (main_arg7 : FVec F S64x256x1 .f32) (main_arg8 : FVec F S64x1x1 .f32) (main_v33 : IVec S_ 1) : IVec S_ 1 :=
  let main_v34 : FVec F S64x256x1 .f32 := Host.absf main_arg7
  let main_cst_12 : FVec F S_ .f32 := constant S_ .f32 0x7F800000#32
  let main_v35 : FVec F S64x256x1 .f32 := broadcastInDim S64x256x1 ![] bcast_S_S64x256x1 main_cst_12
  let main_v36 : IVec S64x256x1 1 := cmpf .olt main_v34 main_v35
  let main_c_13 : IVec S_ 1 := constantI S_ 1 1#1
  let main_v37 : IVec S_ 1 := (fun x v => Host.reduce IntOp.andi x v reducesTo_S64x256x1_S_d0_1_2 h_S_) main_v36 main_c_13
  let main_v38 : IVec S_ 1 := andi main_v33 main_v37
  let main_v39 : FVec F S64x1x1 .f32 := Host.absf main_arg8
  let main_cst_14 : FVec F S_ .f32 := constant S_ .f32 0x7F800000#32
  let main_v40 : FVec F S64x1x1 .f32 := broadcastInDim S64x1x1 ![] bcast_S_S64x1x1 main_cst_14
  let main_v41 : IVec S64x1x1 1 := cmpf .olt main_v39 main_v40
  let main_c_15 : IVec S_ 1 := constantI S_ 1 1#1
  let main_v42 : IVec S_ 1 := (fun x v => Host.reduce IntOp.andi x v reducesTo_S64x1x1_S_d0_1_2 h_S_) main_v41 main_c_15
  let main_v43 : IVec S_ 1 := andi main_v38 main_v42
  main_v43

def fn_part1 {F : FTy → Type} [FloatOps F] (main_arg4 : FVec F S64x1x256 .f32) (main_arg5 : FVec F S64x256x256 .f32) (main_arg6 : FVec F S64x1x256 .f32) (main_arg7 : FVec F S64x256x1 .f32) (main_arg8 : FVec F S64x1x1 .f32) (main_v13 : IVec S_ 1) (main_v16 : IVec S64x256x256 1) : IVec S_ 1 :=
  let main_c_5 : IVec S_ 1 := constantI S_ 1 1#1
  let main_v17 : IVec S_ 1 := (fun x v => Host.reduce IntOp.andi x v reducesTo_S64x256x256_S_d0_1_2 h_S_) main_v16 main_c_5
  let main_v18 : IVec S_ 1 := andi main_v13 main_v17
  let main_v19 : FVec F S64x1x256 .f32 := Host.absf main_arg4
  let main_cst_6 : FVec F S_ .f32 := constant S_ .f32 0x7F800000#32
  let main_v20 : FVec F S64x1x256 .f32 := broadcastInDim S64x1x256 ![] bcast_S_S64x1x256 main_cst_6
  let main_v21 : IVec S64x1x256 1 := cmpf .olt main_v19 main_v20
  let main_c_7 : IVec S_ 1 := constantI S_ 1 1#1
  let main_v22 : IVec S_ 1 := (fun x v => Host.reduce IntOp.andi x v reducesTo_S64x1x256_S_d0_1_2 h_S_) main_v21 main_c_7
  let main_v23 : IVec S_ 1 := andi main_v18 main_v22
  let main_v24 : FVec F S64x256x256 .f32 := Host.absf main_arg5
  let main_cst_8 : FVec F S_ .f32 := constant S_ .f32 0x7F800000#32
  let main_v25 : FVec F S64x256x256 .f32 := broadcastInDim S64x256x256 ![] bcast_S_S64x256x256 main_cst_8
  let main_v26 : IVec S64x256x256 1 := cmpf .olt main_v24 main_v25
  let main_c_9 : IVec S_ 1 := constantI S_ 1 1#1
  let main_v27 : IVec S_ 1 := (fun x v => Host.reduce IntOp.andi x v reducesTo_S64x256x256_S_d0_1_2 h_S_) main_v26 main_c_9
  let main_v28 : IVec S_ 1 := andi main_v23 main_v27
  let main_v29 : FVec F S64x1x256 .f32 := Host.absf main_arg6
  let main_cst_10 : FVec F S_ .f32 := constant S_ .f32 0x7F800000#32
  let main_v30 : FVec F S64x1x256 .f32 := broadcastInDim S64x1x256 ![] bcast_S_S64x1x256 main_cst_10
  let main_v31 : IVec S64x1x256 1 := cmpf .olt main_v29 main_v30
  let main_c_11 : IVec S_ 1 := constantI S_ 1 1#1
  let main_v32 : IVec S_ 1 := (fun x v => Host.reduce IntOp.andi x v reducesTo_S64x1x256_S_d0_1_2 h_S_) main_v31 main_c_11
  let main_v33 : IVec S_ 1 := andi main_v28 main_v32
  fn_part2 (F := F) main_arg7 main_arg8 main_v33

def fn {F : FTy → Type} [FloatOps F] (main_arg0 : FVec F S64x4096x16 .f32) (main_arg1 : FVec F S64x16x256 .f32) (main_arg2 : FVec F S64x1x256 .f32) (main_arg3 : FVec F S64x256x256 .f32) (main_arg4 : FVec F S64x1x256 .f32) (main_arg5 : FVec F S64x256x256 .f32) (main_arg6 : FVec F S64x1x256 .f32) (main_arg7 : FVec F S64x256x1 .f32) (main_arg8 : FVec F S64x1x1 .f32) : IVec S_ 1 :=
  let main_v0 : FVec F S64x4096x16 .f32 := Host.absf main_arg0
  let main_cst : FVec F S_ .f32 := constant S_ .f32 0x7F800000#32
  let main_v1 : FVec F S64x4096x16 .f32 := broadcastInDim S64x4096x16 ![] bcast_S_S64x4096x16 main_cst
  let main_v2 : IVec S64x4096x16 1 := cmpf .olt main_v0 main_v1
  let main_c : IVec S_ 1 := constantI S_ 1 1#1
  let main_v3 : IVec S_ 1 := (fun x v => Host.reduce IntOp.andi x v reducesTo_S64x4096x16_S_d0_1_2 h_S_) main_v2 main_c
  let main_v4 : FVec F S64x16x256 .f32 := Host.absf main_arg1
  let main_cst_0 : FVec F S_ .f32 := constant S_ .f32 0x7F800000#32
  let main_v5 : FVec F S64x16x256 .f32 := broadcastInDim S64x16x256 ![] bcast_S_S64x16x256 main_cst_0
  let main_v6 : IVec S64x16x256 1 := cmpf .olt main_v4 main_v5
  let main_c_1 : IVec S_ 1 := constantI S_ 1 1#1
  let main_v7 : IVec S_ 1 := (fun x v => Host.reduce IntOp.andi x v reducesTo_S64x16x256_S_d0_1_2 h_S_) main_v6 main_c_1
  let main_v8 : IVec S_ 1 := andi main_v3 main_v7
  let main_v9 : FVec F S64x1x256 .f32 := Host.absf main_arg2
  let main_cst_2 : FVec F S_ .f32 := constant S_ .f32 0x7F800000#32
  let main_v10 : FVec F S64x1x256 .f32 := broadcastInDim S64x1x256 ![] bcast_S_S64x1x256 main_cst_2
  let main_v11 : IVec S64x1x256 1 := cmpf .olt main_v9 main_v10
  let main_c_3 : IVec S_ 1 := constantI S_ 1 1#1
  let main_v12 : IVec S_ 1 := (fun x v => Host.reduce IntOp.andi x v reducesTo_S64x1x256_S_d0_1_2 h_S_) main_v11 main_c_3
  let main_v13 : IVec S_ 1 := andi main_v8 main_v12
  let main_v14 : FVec F S64x256x256 .f32 := Host.absf main_arg3
  let main_cst_4 : FVec F S_ .f32 := constant S_ .f32 0x7F800000#32
  let main_v15 : FVec F S64x256x256 .f32 := broadcastInDim S64x256x256 ![] bcast_S_S64x256x256 main_cst_4
  let main_v16 : IVec S64x256x256 1 := cmpf .olt main_v14 main_v15
  fn_part1 (F := F) main_arg4 main_arg5 main_arg6 main_arg7 main_arg8 main_v13 main_v16
-- ==== Kernel.lean ====
abbrev S64x4096x16 : Shape := ⟨3, ![64, 4096, 16]⟩
abbrev S64x16x256 : Shape := ⟨3, ![64, 16, 256]⟩
abbrev S64x1x256 : Shape := ⟨3, ![64, 1, 256]⟩
abbrev S64x256x256 : Shape := ⟨3, ![64, 256, 256]⟩
abbrev S64x256x1 : Shape := ⟨3, ![64, 256, 1]⟩
abbrev S64x1x1 : Shape := ⟨3, ![64, 1, 1]⟩
abbrev S64x4096x1 : Shape := ⟨3, ![64, 4096, 1]⟩
abbrev S1x4096x16 : Shape := ⟨3, ![1, 4096, 16]⟩
abbrev S1x16x256 : Shape := ⟨3, ![1, 16, 256]⟩
abbrev S1x1x256 : Shape := ⟨3, ![1, 1, 256]⟩
abbrev S1x256x256 : Shape := ⟨3, ![1, 256, 256]⟩
abbrev S1x256x1 : Shape := ⟨3, ![1, 256, 1]⟩
abbrev S1x1x1 : Shape := ⟨3, ![1, 1, 1]⟩
abbrev S1x4096x1 : Shape := ⟨3, ![1, 4096, 1]⟩
abbrev S4096x16 : Shape := ⟨2, ![4096, 16]⟩
abbrev S16x256 : Shape := ⟨2, ![16, 256]⟩
abbrev S4096x256 : Shape := ⟨2, ![4096, 256]⟩
abbrev S1x256 : Shape := ⟨2, ![1, 256]⟩
abbrev S256x256 : Shape := ⟨2, ![256, 256]⟩
abbrev S256x1 : Shape := ⟨2, ![256, 1]⟩
abbrev S4096x1 : Shape := ⟨2, ![4096, 1]⟩
abbrev S1x1 : Shape := ⟨2, ![1, 1]⟩

abbrev nBuf : Space → Nat
  | .hbm => 10
  | .vmem => 20
  | .smem => 0
  | _ => 0

abbrev bufTy : (tb : Table) → Fin (tcTables nBuf tb) → BufTy
  | .hbm, ⟨0, _⟩ => ⟨S64x4096x16, .f32⟩
  | .hbm, ⟨1, _⟩ => ⟨S64x16x256, .f32⟩
  | .hbm, ⟨2, _⟩ => ⟨S64x1x256, .f32⟩
  | .hbm, ⟨3, _⟩ => ⟨S64x256x256, .f32⟩
  | .hbm, ⟨4, _⟩ => ⟨S64x1x256, .f32⟩
  | .hbm, ⟨5, _⟩ => ⟨S64x256x256, .f32⟩
  | .hbm, ⟨6, _⟩ => ⟨S64x1x256, .f32⟩
  | .hbm, ⟨7, _⟩ => ⟨S64x256x1, .f32⟩
  | .hbm, ⟨8, _⟩ => ⟨S64x1x1, .f32⟩
  | .hbm, ⟨9, _⟩ => ⟨S64x4096x1, .f32⟩
  | .local _ .vmem, ⟨0, _⟩ => ⟨S1x4096x16, .f32⟩
  | .local _ .vmem, ⟨1, _⟩ => ⟨S1x4096x16, .f32⟩
  | .local _ .vmem, ⟨2, _⟩ => ⟨S1x16x256, .f32⟩
  | .local _ .vmem, ⟨3, _⟩ => ⟨S1x16x256, .f32⟩
  | .local _ .vmem, ⟨4, _⟩ => ⟨S1x1x256, .f32⟩
  | .local _ .vmem, ⟨5, _⟩ => ⟨S1x1x256, .f32⟩
  | .local _ .vmem, ⟨6, _⟩ => ⟨S1x256x256, .f32⟩
  | .local _ .vmem, ⟨7, _⟩ => ⟨S1x256x256, .f32⟩
  | .local _ .vmem, ⟨8, _⟩ => ⟨S1x1x256, .f32⟩
  | .local _ .vmem, ⟨9, _⟩ => ⟨S1x1x256, .f32⟩
  | .local _ .vmem, ⟨10, _⟩ => ⟨S1x256x256, .f32⟩
  | .local _ .vmem, ⟨11, _⟩ => ⟨S1x256x256, .f32⟩
  | .local _ .vmem, ⟨12, _⟩ => ⟨S1x1x256, .f32⟩
  | .local _ .vmem, ⟨13, _⟩ => ⟨S1x1x256, .f32⟩
  | .local _ .vmem, ⟨14, _⟩ => ⟨S1x256x1, .f32⟩
  | .local _ .vmem, ⟨15, _⟩ => ⟨S1x256x1, .f32⟩
  | .local _ .vmem, ⟨16, _⟩ => ⟨S1x1x1, .f32⟩
  | .local _ .vmem, ⟨17, _⟩ => ⟨S1x1x1, .f32⟩
  | .local _ .vmem, ⟨18, _⟩ => ⟨S1x4096x1, .f32⟩
  | .local _ .vmem, ⟨19, _⟩ => ⟨S1x4096x1, .f32⟩
  | _, _ => ⟨S64x4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4096x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S1x4096x16_S1x4096x16_0_0_0 : ∀ a, (![0, 0, 0] : Fin 3 → Nat) a + S1x4096x16.size a ≤ S1x4096x16.size a
  h_S1x4096x16 : 0 < S1x4096x16.numel
  shapeCasts_S1x4096x16_S4096x16 : S1x4096x16.ShapeCasts S4096x16
  bitsLt_bf16_f32 : FTy.bits .bf16 < FTy.bits .f32
  inb_S1x16x256_S1x16x256_0_0_0 : ∀ a, (![0, 0, 0] : Fin 3 → Nat) a + S1x16x256.size a ≤ S1x16x256.size a
  h_S1x16x256 : 0 < S1x16x256.numel
  shapeCasts_S1x16x256_S16x256 : S1x16x256.ShapeCasts S16x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S4096x256 : S1x256.Broadcasts S4096x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  broadcasts_S1x1_S4096x1 : S1x1.Broadcasts S4096x1
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S4096x1 : S1x4096x1.ShapeCasts S4096x1
  shapeCasts_S4096x1_S1x4096x1 : S4096x1.ShapeCasts S1x4096x1
  dot_S4096x16_S16x256_S4096x256_1_0_0_1_n_n_wf : DotDims.WF S4096x16 S16x256 S4096x256 [1] [0] [0] [1] [] []
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x16.size a ≤ S64x4096x16.size a
  hwx0_0 : ∀ i : grid0.Coords, EltTy.bits .f32 = 32 ∨ (Rect.block (s := S64x4096x16) S1x4096x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x256.size a ≤ S64x16x256.size a
  hwx0_1 : ∀ i : grid0.Coords, EltTy.bits .f32 = 32 ∨ (Rect.block (s := S64x16x256) S1x16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S64x1x256.size a
  hwx0_2 : ∀ i : grid0.Coords, EltTy.bits .f32 = 32 ∨ (Rect.block (s := S64x1x256) S1x1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S64x256x256.size a
  hwx0_3 : ∀ i : grid0.Coords, EltTy.bits .f32 = 32 ∨ (Rect.block (s := S64x256x256) S1x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S64x1x256.size a
  hwx0_4 : ∀ i : grid0.Coords, EltTy.bits .f32 = 32 ∨ (Rect.block (s := S64x1x256) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x256.size a ≤ S64x256x256.size a
  hwx0_5 : ∀ i : grid0.Coords, EltTy.bits .f32 = 32 ∨ (Rect.block (s := S64x256x256) S1x256x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S64x1x256.size a
  hwx0_6 : ∀ i : grid0.Coords, EltTy.bits .f32 = 32 ∨ (Rect.block (s := S64x1x256) S1x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1.size a ≤ S64x256x1.size a
  hwx0_7 : ∀ i : grid0.Coords, EltTy.bits .f32 = 32 ∨ (Rect.block (s := S64x256x1) S1x256x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S64x1x1.size a
  hwx0_8 : ∀ i : grid0.Coords, EltTy.bits .f32 = 32 ∨ (Rect.block (s := S64x1x1) S1x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x4096x1.size a ≤ S64x4096x1.size a
  hwx0_9 : ∀ i : grid0.Coords, EltTy.bits .f32 = 32 ∨ (Rect.block (s := S64x4096x1) S1x4096x1.size (cc0_transform_9 i) (hinb0_9 i)).WholeWords (EltTy.packing .f32)

variable [Facts₀]

def dot_S4096x16_S16x256_S4096x256_1_0_0_1_n_n : DotDims S4096x16 S16x256 S4096x256 where
  lhsContracting := [1]
  rhsContracting := [0]
  lhsNonContracting := [0]
  rhsNonContracting := [1]
  lhsBatch := []
  rhsBatch := []
  wf := dot_S4096x16_S16x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

abbrev win0_0 : Pipeline.Window sig grid0 :=
  Pipeline.Window.ofSpec (Memref.whole main_arg0) S1x4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x256x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x256x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x1x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0) S1x4096x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x4096x16 : Shape := ⟨3, ![64, 4096, 16]⟩
abbrev S64x16x256 : Shape := ⟨3, ![64, 16, 256]⟩
abbrev S64x1x256 : Shape := ⟨3, ![64, 1, 256]⟩
abbrev S64x256x256 : Shape := ⟨3, ![64, 256, 256]⟩
abbrev S64x256x1 : Shape := ⟨3, ![64, 256, 1]⟩
abbrev S64x1x1 : Shape := ⟨3, ![64, 1, 1]⟩
abbrev S64x4096x256 : Shape := ⟨3, ![64, 4096, 256]⟩
abbrev S_ : Shape := ⟨0, ![]⟩
abbrev S64x4096x1 : Shape := ⟨3, ![64, 4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S64x4096x16, .f32⟩
  | .hbm, ⟨1, _⟩ => ⟨S64x16x256, .f32⟩
  | .hbm, ⟨2, _⟩ => ⟨S64x1x256, .f32⟩
  | .hbm, ⟨3, _⟩ => ⟨S64x256x256, .f32⟩
  | .hbm, ⟨4, _⟩ => ⟨S64x1x256, .f32⟩
  | .hbm, ⟨5, _⟩ => ⟨S64x256x256, .f32⟩
  | .hbm, ⟨6, _⟩ => ⟨S64x1x256, .f32⟩
  | .hbm, ⟨7, _⟩ => ⟨S64x256x1, .f32⟩
  | .hbm, ⟨8, _⟩ => ⟨S64x1x1, .f32⟩
  | .hbm, ⟨9, _⟩ => ⟨S64x4096x256, .f32⟩
  | .hbm, ⟨10, _⟩ => ⟨S64x4096x256, .f32⟩
  | .hbm, ⟨11, _⟩ => ⟨S64x4096x256, .f32⟩
  | .hbm, ⟨12, _⟩ => ⟨S64x4096x256, .f32⟩
  | .hbm, ⟨13, _⟩ => ⟨S64x4096x256, .f32⟩
  | .hbm, ⟨14, _⟩ => ⟨S_, .f32⟩
  | .hbm, ⟨15, _⟩ => ⟨S64x4096x256, .f32⟩
  | .hbm, ⟨16, _⟩ => ⟨S64x4096x256, .f32⟩
  | .hbm, ⟨17, _⟩ => ⟨S_, .f32⟩
  | .hbm, ⟨18, _⟩ => ⟨S64x4096x256, .f32⟩
  | .hbm, ⟨19, _⟩ => ⟨S64x4096x256, .f32⟩
  | .hbm, ⟨20, _⟩ => ⟨S64x4096x256, .f32⟩
  | .hbm, ⟨21, _⟩ => ⟨S64x4096x256, .f32⟩
  | .hbm, ⟨22, _⟩ => ⟨S64x4096x256, .f32⟩
  | .hbm, ⟨23, _⟩ => ⟨S64x4096x256, .f32⟩
  | .hbm, ⟨24, _⟩ => ⟨S64x4096x256, .f32⟩
  | .hbm, ⟨25, _⟩ => ⟨S64x4096x256, .f32⟩
  | .hbm, ⟨26, _⟩ => ⟨S_, .f32⟩
  | .hbm, ⟨27, _⟩ => ⟨S64x4096x256, .f32⟩
  | .hbm, ⟨28, _⟩ => ⟨S64x4096x256, .f32⟩
  | .hbm, ⟨29, _⟩ => ⟨S_, .f32⟩
  | .hbm, ⟨30, _⟩ => ⟨S64x4096x256, .f32⟩
  | .hbm, ⟨31, _⟩ => ⟨S64x4096x256, .f32⟩
  | .hbm, ⟨32, _⟩ => ⟨S64x4096x256, .f32⟩
  | .hbm, ⟨33, _⟩ => ⟨S64x4096x256, .f32⟩
  | .hbm, ⟨34, _⟩ => ⟨S64x4096x256, .f32⟩
  | .hbm, ⟨35, _⟩ => ⟨S64x4096x256, .f32⟩
  | .hbm, ⟨36, _⟩ => ⟨S64x4096x256, .f32⟩
  | .hbm, ⟨37, _⟩ => ⟨S64x4096x256, .f32⟩
  | .hbm, ⟨38, _⟩ => ⟨S_, .f32⟩
  | .hbm, ⟨39, _⟩ => ⟨S64x4096x256, .f32⟩
  | .hbm, ⟨40, _⟩ => ⟨S64x4096x256, .f32⟩
  | .hbm, ⟨41, _⟩ => ⟨S_, .f32⟩
  | .hbm, ⟨42, _⟩ => ⟨S64x4096x256, .f32⟩
  | .hbm, ⟨43, _⟩ => ⟨S64x4096x256, .f32⟩
  | .hbm, ⟨44, _⟩ => ⟨S64x4096x256, .f32⟩
  | .hbm, ⟨45, _⟩ => ⟨S64x4096x1, .f32⟩
  | .hbm, ⟨46, _⟩ => ⟨S64x4096x1, .f32⟩
  | .hbm, ⟨47, _⟩ => ⟨S64x4096x1, .f32⟩
  | _, _ => ⟨S64x4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_call2_v5 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩

abbrev nD : Nat := 1
abbrev τ : Topo := Topo.v7x

variable {F : FTy → Type} [FloatOps F]

class Facts₀ : Prop where
  bcast_S64x1x256_S64x4096x256_0_1_2 : S64x1x256.BroadcastsInDim S64x4096x256 (![0, 1, 2] : Fin 3 → Fin S64x4096x256.rank)
  bcast_S_S64x4096x256 : S_.BroadcastsInDim S64x4096x256 (![] : Fin 0 → Fin S64x4096x256.rank)
  bcast_S64x1x1_S64x4096x1_0_1_2 : S64x1x1.BroadcastsInDim S64x4096x1 (![0, 1, 2] : Fin 3 → Fin S64x4096x1.rank)
  dot_S64x4096x16_S64x16x256_S64x4096x256_2_1_1_2_0_0_wf : DotDims.WF S64x4096x16 S64x16x256 S64x4096x256 [2] [1] [1] [2] [0] [0]
  dot_S64x4096x256_S64x256x256_S64x4096x256_2_1_1_2_0_0_wf : DotDims.WF S64x4096x256 S64x256x256 S64x4096x256 [2] [1] [1] [2] [0] [0]
  dot_S64x4096x256_S64x256x1_S64x4096x1_2_1_1_2_0_0_wf : DotDims.WF S64x4096x256 S64x256x1 S64x4096x1 [2] [1] [1] [2] [0] [0]

variable [Facts₀]

def dot_S64x4096x16_S64x16x256_S64x4096x256_2_1_1_2_0_0 : DotDims S64x4096x16 S64x16x256 S64x4096x256 where
  lhsContracting := [2]
  rhsContracting := [1]
  lhsNonContracting := [1]
  rhsNonContracting := [2]
  lhsBatch := [0]
  rhsBatch := [0]
  wf := dot_S64x4096x16_S64x16x256_S64x4096x256_2_1_1_2_0_0_wf
def dot_S64x4096x256_S64x256x256_S64x4096x256_2_1_1_2_0_0 : DotDims S64x4096x256 S64x256x256 S64x4096x256 where
  lhsContracting := [2]
  rhsContracting := [1]
  lhsNonContracting := [1]
  rhsNonContracting := [2]
  lhsBatch := [0]
  rhsBatch := [0]
  wf := dot_S64x4096x256_S64x256x256_S64x4096x256_2_1_1_2_0_0_wf
def dot_S64x4096x256_S64x256x1_S64x4096x1_2_1_1_2_0_0 : DotDims S64x4096x256 S64x256x1 S64x4096x1 where
  lhsContracting := [2]
  rhsContracting := [1]
  lhsNonContracting := [1]
  rhsNonContracting := [2]
  lhsBatch := [0]
  rhsBatch := [0]
  wf := dot_S64x4096x256_S64x256x1_S64x4096x1_2_1_1_2_0_0_wf

class Facts : Prop extends Facts₀ where

variable [Facts]
-- ==== Proof.MlpSpec.lean ====
/-
  The function both programs compute, written once over the extended reals.

  The arguments are 64 independent members of an ensemble. Member `e` owns an input matrix `x[e]` (4096 rows of 16
  features), three hidden layers `(w0[e], b0[e])`, `(w1[e], b1[e])`, `(w2[e], b2[e])` of width 256 and an output layer
  `(wl[e], bl[e])` of width 1. A hidden unit is the activation `z ↦ z · 1/(1 + e^(-z))` of the affine value
  `z = Σₖ h[k] · W[k, j] + b[j]` of the layer's input row `h`; the output is the affine value of the last hidden row.
  Every output entry `(e, p, 0)` depends on row `p` of `x[e]` and on member `e`'s weights only.
-/
import Idealize.ShloMosaic.PureOps.Ideal
import Idealize.ShloMosaic.Lib.ValueIdx

noncomputable section

open scoped BigOperators

namespace Cert.Mlp

open Idealize.ShloMosaic Idealize.ShloMosaic.ValueIdx

/-- The argument and result shapes: the member axis first. -/
abbrev SX : Shape := ⟨3, ![64, 4096, 16]⟩
abbrev SW0 : Shape := ⟨3, ![64, 16, 256]⟩
abbrev SB : Shape := ⟨3, ![64, 1, 256]⟩
abbrev SW : Shape := ⟨3, ![64, 256, 256]⟩
abbrev SWL : Shape := ⟨3, ![64, 256, 1]⟩
abbrev SBL : Shape := ⟨3, ![64, 1, 1]⟩
abbrev SO : Shape := ⟨3, ![64, 4096, 1]⟩

/-- The activation `z · 1/(1 + e^(-z))` on the extended reals (`Ideal.logistic` is `1/(1 + e^(-z))` with its limits
    `0` at `-∞` and `1` at `+∞`). -/
def silu (z : EReal) : EReal := z * Ideal.logistic z

/-- One unit of a dense layer before its activation: the input row `h` against the unit's weight column `w`, plus the
    unit's bias. -/
def affine {K : ℕ} (h w : Fin K → EReal) (b : EReal) : EReal := (∑ k : Fin K, h k * w k) + b

/-- A hidden layer of width 256 applied to the row `h`: unit `j` is the activation of its affine value. -/
def layer {K : ℕ} (h : Fin K → EReal) (W : Fin K → Fin 256 → EReal) (B : Fin 256 → EReal) (j : Fin 256) : EReal :=
  silu (affine h (fun k => W k j) (B j))

/-- One member's network at one input row `X`: three hidden layers, then the single output unit. -/
def member (X : Fin 16 → EReal) (W0 : Fin 16 → Fin 256 → EReal) (B0 : Fin 256 → EReal)
    (W1 : Fin 256 → Fin 256 → EReal) (B1 : Fin 256 → EReal) (W2 : Fin 256 → Fin 256 → EReal) (B2 : Fin 256 → EReal)
    (WL : Fin 256 → EReal) (BL : EReal) : EReal :=
  affine (layer (layer (layer X W0 B0) W1 B1) W2 B2) WL BL

/-- The result at member `e` and row `p`: member `e`'s network, its weights read off the argument arrays at leading
    coordinate `e`, at row `p` of `x[e]`. -/
def outAt (x : SX.Idx → EReal) (w0 : SW0.Idx → EReal) (b0 : SB.Idx → EReal) (w1 : SW.Idx → EReal) (b1 : SB.Idx → EReal)
    (w2 : SW.Idx → EReal) (b2 : SB.Idx → EReal) (wl : SWL.Idx → EReal) (bl : SBL.Idx → EReal) (e : Fin 64) (p : Fin 4096) : EReal :=
  member (fun k => x (ix3 e p k)) (fun k j => w0 (ix3 e k j)) (fun j => b0 (ix3 e 0 j))
    (fun k j => w1 (ix3 e k j)) (fun j => b1 (ix3 e 0 j)) (fun k j => w2 (ix3 e k j)) (fun j => b2 (ix3 e 0 j))
    (fun k => wl (ix3 e k 0)) (bl (ix3 e 0 0))

/-- The whole result array as one function of the nine argument arrays. -/
def G (x : SX.Idx → EReal) (w0 : SW0.Idx → EReal) (b0 : SB.Idx → EReal) (w1 : SW.Idx → EReal) (b1 : SB.Idx → EReal)
    (w2 : SW.Idx → EReal) (b2 : SB.Idx → EReal) (wl : SWL.Idx → EReal) (bl : SBL.Idx → EReal) : SO.Idx → EReal :=
  fun i => outAt x w0 b0 w1 b1 w2 b2 wl bl ⟨(i 0).val, (i 0).isLt⟩ ⟨(i 1).val, (i 1).isLt⟩

/-- `G` at an index given by its coordinates. -/
theorem G_ix3 (x : SX.Idx → EReal) (w0 : SW0.Idx → EReal) (b0 : SB.Idx → EReal) (w1 : SW.Idx → EReal) (b1 : SB.Idx → EReal)
    (w2 : SW.Idx → EReal) (b2 : SB.Idx → EReal) (wl : SWL.Idx → EReal) (bl : SBL.Idx → EReal) (e : Fin 64) (p : Fin 4096) (q : Fin 1) :
    G x w0 b0 w1 b1 w2 b2 wl bl (ix3 e p q) = outAt x w0 b0 w1 b1 w2 b2 wl bl e p := rfl

/-- The host's spelling of the activation — `z · (1 / (1 + exp (-z)))` with the two ones the float `1.0` — is `silu`:
    `Ideal.logistic` is that quotient by definition, and the word `0x3F800000` denotes `1`. -/
theorem silu_of_host (z : EReal) :
    z * Ideal.div (Ideal.ofBits .f32 0x3F800000#32) (Ideal.ofBits .f32 0x3F800000#32 + Ideal.exp (-z)) = silu z := by
  have h1 : Ideal.ofBits .f32 0x3F800000#32 = 1 := by simp [Ideal.ofBits, Ideal.ieee, -EReal.coe_mul]; norm_num
  rw [h1]
  rfl

end Cert.Mlp

end
-- ==== Proof.BodyValue.lean ====
/-
  What the kernel body stores, read one entry at a time.

  At one grid point the body holds one member's blocks: `x` of shape [1, 4096, 16], the weights [1, K, 256] and
  [1, 256, 1], the biases [1, 1, 256] and [1, 1, 1]. Its stored value is a chain of three hidden layers and an output
  layer; each layer drops the leading unit axis of its blocks, multiplies the previous activations by the weight matrix
  into a zero accumulator, adds the bias row to every row, and (for a hidden layer) multiplies the sum by its logistic.
  The narrowing of an operand to bf16 before a product is the identity on the extended reals. So entry `(0, p, 0)` of the
  stored block is the member network of the specification at row `p`, with the weights read off the blocks.
-/
import proofs.«167812_j773094113632_1_alg».proof.Proof.Gen.KernelIdeal.Skeleton
import proofs.«167812_j773094113632_1_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The stored value as a chain of layers -/

section AnyInstance
variable {F : FTy → Type} [FloatOps F]

/-- A hidden layer's activation, on the whole [4096, 256] array of affine values: each value times its logistic. -/
def act (z : FVec F S4096x256 .f32) : FVec F S4096x256 .f32 := mulf z (logistic z)

/-- The first layer's affine values: the 4096 input rows against the [16, 256] weights, plus the bias row. -/
def dense16 (x : Vec F S1x4096x16 .f32) (w : Vec F S1x16x256 .f32) (b : Vec F S1x1x256 .f32) : FVec F S4096x256 .f32 :=
  addf (matmul dot_S4096x16_S16x256_S4096x256_1_0_0_1_n_n none
      (truncf .bf16 (shapeCast S4096x16 x shapeCasts_S1x4096x16_S4096x16) bitsLt_bf16_f32)
      (truncf .bf16 (shapeCast S16x256 w shapeCasts_S1x16x256_S16x256) bitsLt_bf16_f32)
      (constant S4096x256 .f32 0x00000000#32))
    (broadcastTo S4096x256 (shapeCast S1x256 b shapeCasts_S1x1x256_S1x256) broadcasts_S1x256_S4096x256)

/-- A later hidden layer's affine values: the previous activations against the [256, 256] weights, plus the bias row. -/
def dense256 (u : FVec F S4096x256 .f32) (w : Vec F S1x256x256 .f32) (b : Vec F S1x1x256 .f32) : FVec F S4096x256 .f32 :=
  addf (matmul dot_S4096x256_S256x256_S4096x256_1_0_0_1_n_n none
      (truncf .bf16 u bitsLt_bf16_f32)
      (truncf .bf16 (shapeCast S256x256 w shapeCasts_S1x256x256_S256x256) bitsLt_bf16_f32)
      (constant S4096x256 .f32 0x00000000#32))
    (broadcastTo S4096x256 (shapeCast S1x256 b shapeCasts_S1x1x256_S1x256) broadcasts_S1x256_S4096x256)

/-- The output layer's values: the last activations against the [256, 1] weights, plus the one bias. -/
def denseOut (u : FVec F S4096x256 .f32) (w : Vec F S1x256x1 .f32) (b : Vec F S1x1x1 .f32) : FVec F S4096x1 .f32 :=
  addf (matmul dot_S4096x256_S256x1_S4096x1_1_0_0_1_n_n none
      (truncf .bf16 u bitsLt_bf16_f32)
      (truncf .bf16 (shapeCast S256x1 w shapeCasts_S1x256x1_S256x1) bitsLt_bf16_f32)
      (constant S4096x1 .f32 0x00000000#32))
    (broadcastTo S4096x1 (shapeCast S1x1 b shapeCasts_S1x1x1_S1x1) broadcasts_S1x1_S4096x1)

/-- The last hidden layer's activations, as the body computes them from its seven loaded blocks, are the chain. -/
theorem hiddenPayload_eq (x : Vec F S1x4096x16 .f32) (w0 : Vec F S1x16x256 .f32) (b0 : Vec F S1x1x256 .f32)
    (w1 : Vec F S1x256x256 .f32) (b1 : Vec F S1x1x256 .f32) (w2 : Vec F S1x256x256 .f32) (b2 : Vec F S1x1x256 .f32) :
    k0_pay2 x w0 b0 w1 b1 w2 b2 = act (dense256 (act (dense256 (act (dense16 x w0 b0)) w1 b1)) w2 b2) := rfl

/-- The stored block is the output layer of those activations with the leading unit axis put back. -/
theorem storedPayload_eq (u : FVec F S4096x256 .f32) (wl : Vec F S1x256x1 .f32) (bl : Vec F S1x1x1 .f32) :
    k0_pay1 u wl bl = shapeCast S1x4096x1 (denseOut u wl bl) shapeCasts_S4096x1_S1x4096x1 := rfl

end AnyInstance

/-! ## The three products read at an entry

Each product contracts the left operand's axis 1 with the right operand's axis 0 and has no batch axis: at output entry
`(p, j)` and contraction position `k` the left operand is read at `(p, k)` and the right at `(k, j)`. -/

/-! ### The [4096, 16] × [16, 256] product of the first layer -/

theorem first_lhs_row (i : S4096x256.Idx) (q : dot_S4096x16_S16x256_S4096x256_1_0_0_1_n_n.contr.Idx) :
    (dot_S4096x16_S16x256_S4096x256_1_0_0_1_n_n.lhsIdx i q 0).val = (i 0).val := by
  unfold DotDims.lhsIdx
  rw [dif_neg (show ¬(0 : Fin S4096x16.rank) ∈ dot_S4096x16_S16x256_S4096x256_1_0_0_1_n_n.lhsBatch by decide), dif_pos (show (0 : Fin S4096x16.rank) ∈ dot_S4096x16_S16x256_S4096x256_1_0_0_1_n_n.lhsNonContracting by decide)]
  rfl
theorem first_lhs_contr (i : S4096x256.Idx) (q : dot_S4096x16_S16x256_S4096x256_1_0_0_1_n_n.contr.Idx) :
    (dot_S4096x16_S16x256_S4096x256_1_0_0_1_n_n.lhsIdx i q 1).val = (q ⟨0, by decide⟩).val :=
  dot_S4096x16_S16x256_S4096x256_1_0_0_1_n_n.lhsIdx_val_of_single rfl i q
theorem first_rhs_contr (i : S4096x256.Idx) (q : dot_S4096x16_S16x256_S4096x256_1_0_0_1_n_n.contr.Idx) :
    (dot_S4096x16_S16x256_S4096x256_1_0_0_1_n_n.rhsIdx i q 0).val = (q ⟨0, by decide⟩).val :=
  dot_S4096x16_S16x256_S4096x256_1_0_0_1_n_n.rhsIdx_val_of_single rfl i q
theorem first_rhs_col (i : S4096x256.Idx) (q : dot_S4096x16_S16x256_S4096x256_1_0_0_1_n_n.contr.Idx) :
    (dot_S4096x16_S16x256_S4096x256_1_0_0_1_n_n.rhsIdx i q 1).val = (i 1).val := by
  unfold DotDims.rhsIdx
  rw [dif_neg (show ¬(1 : Fin S16x256.rank) ∈ dot_S4096x16_S16x256_S4096x256_1_0_0_1_n_n.rhsBatch by decide), dif_pos (show (1 : Fin S16x256.rank) ∈ dot_S4096x16_S16x256_S4096x256_1_0_0_1_n_n.rhsNonContracting by decide)]
  rfl

/-- Into the zero accumulator, the first layer's product at `(p, j)` is the sum over the 16 features. -/
theorem first_product_apply (l : FVec Ideal S4096x16 .bf16) (r : FVec Ideal S16x256 .bf16) (p : Fin 4096) (j : Fin 256) :
    matmul dot_S4096x16_S16x256_S4096x256_1_0_0_1_n_n none l r (constant S4096x256 .f32 0x00000000#32) (ix2 p j)
      = ∑ k : Fin 16, l (ix2 p k) * r (ix2 k j) := by
  simp only [matmul]
  rw [Ideal.matmul_constant_zero_apply, ← Equiv.sum_comp (contrEquiv1 dot_S4096x16_S16x256_S4096x256_1_0_0_1_n_n 16 rfl rfl).symm]
  refine Finset.sum_congr rfl fun k _ => ?_
  have hk := contrEquiv1_symm_val dot_S4096x16_S16x256_S4096x256_1_0_0_1_n_n 16 rfl rfl k
  have el : dot_S4096x16_S16x256_S4096x256_1_0_0_1_n_n.lhsIdx (ix2 p j) ((contrEquiv1 dot_S4096x16_S16x256_S4096x256_1_0_0_1_n_n 16 rfl rfl).symm k) = ix2 p k := funext fun a => Fin.ext (by
    match a with
    | ⟨0, _⟩ => exact first_lhs_row _ _
    | ⟨1, _⟩ => exact (first_lhs_contr _ _).trans hk)
  have er : dot_S4096x16_S16x256_S4096x256_1_0_0_1_n_n.rhsIdx (ix2 p j) ((contrEquiv1 dot_S4096x16_S16x256_S4096x256_1_0_0_1_n_n 16 rfl rfl).symm k) = ix2 k j := funext fun a => Fin.ext (by
    match a with
    | ⟨0, _⟩ => exact (first_rhs_contr _ _).trans hk
    | ⟨1, _⟩ => exact first_rhs_col _ _)
  rw [el, er]

/-! ### The [4096, 256] × [256, 256] product of the second and third layers -/

theorem mid_lhs_row (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem mid_lhs_contr (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem mid_rhs_contr (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem mid_rhs_col (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

/-- Into the zero accumulator, a middle layer's product at `(p, j)` is the sum over the 256 previous units. -/
theorem mid_product_apply (l : FVec Ideal S4096x256 .bf16) (r : FVec Ideal S256x256 .bf16) (p : Fin 4096) (j : Fin 256) :
    matmul dot_S4096x256_S256x256_S4096x256_1_0_0_1_n_n none l r (constant S4096x256 .f32 0x00000000#32) (ix2 p j)
      = ∑ k : Fin 256, l (ix2 p k) * r (ix2 k j) := by
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 p j) ((contrEquiv1 dot_S4096x256_S256x256_S4096x256_1_0_0_1_n_n 256 rfl rfl).symm k) = ix2 p k := funext fun a => Fin.ext (by
    match a with
    | ⟨0, _⟩ => exact mid_lhs_row _ _
    | ⟨1, _⟩ => exact (mid_lhs_contr _ _).trans hk)
  have er : dot_S4096x256_S256x256_S4096x256_1_0_0_1_n_n.rhsIdx (ix2 p j) ((contrEquiv1 dot_S4096x256_S256x256_S4096x256_1_0_0_1_n_n 256 rfl rfl).symm k) = ix2 k j := funext fun a => Fin.ext (by
    match a with
    | ⟨0, _⟩ => exact (mid_rhs_contr _ _).trans hk
    | ⟨1, _⟩ => exact mid_rhs_col _ _)
  rw [el, er]

/-! ### The [4096, 256] × [256, 1] product of the output layer -/

theorem last_lhs_row (i : S4096x1.Idx) (q : dot_S4096x256_S256x1_S4096x1_1_0_0_1_n_n.contr.Idx) :
    (dot_S4096x256_S256x1_S4096x1_1_0_0_1_n_n.lhsIdx i q 0).val = (i 0).val := by
  unfold DotDims.lhsIdx
  rw [dif_neg (show ¬(0 : Fin S4096x256.rank) ∈ dot_S4096x256_S256x1_S4096x1_1_0_0_1_n_n.lhsBatch by decide), dif_pos (show (0 : Fin S4096x256.rank) ∈ dot_S4096x256_S256x1_S4096x1_1_0_0_1_n_n.lhsNonContracting by decide)]
  rfl
theorem last_lhs_contr (i : S4096x1.Idx) (q : dot_S4096x256_S256x1_S4096x1_1_0_0_1_n_n.contr.Idx) :
    (dot_S4096x256_S256x1_S4096x1_1_0_0_1_n_n.lhsIdx i q 1).val = (q ⟨0, by decide⟩).val :=
  dot_S4096x256_S256x1_S4096x1_1_0_0_1_n_n.lhsIdx_val_of_single rfl i q
theorem last_rhs_contr (i : S4096x1.Idx) (q : dot_S4096x256_S256x1_S4096x1_1_0_0_1_n_n.contr.Idx) :
    (dot_S4096x256_S256x1_S4096x1_1_0_0_1_n_n.rhsIdx i q 0).val = (q ⟨0, by decide⟩).val :=
  dot_S4096x256_S256x1_S4096x1_1_0_0_1_n_n.rhsIdx_val_of_single rfl i q
theorem last_rhs_col (i : S4096x1.Idx) (q : dot_S4096x256_S256x1_S4096x1_1_0_0_1_n_n.contr.Idx) :
    (dot_S4096x256_S256x1_S4096x1_1_0_0_1_n_n.rhsIdx i q 1).val = (i 1).val := by
  unfold DotDims.rhsIdx
  rw [dif_neg (show ¬(1 : Fin S256x1.rank) ∈ dot_S4096x256_S256x1_S4096x1_1_0_0_1_n_n.rhsBatch by decide), dif_pos (show (1 : Fin S256x1.rank) ∈ dot_S4096x256_S256x1_S4096x1_1_0_0_1_n_n.rhsNonContracting by decide)]
  rfl

/-- Into the zero accumulator, the output layer's product at `(p, q)` is the sum over the 256 last hidden units. -/
theorem last_product_apply (l : FVec Ideal S4096x256 .bf16) (r : FVec Ideal S256x1 .bf16) (p : Fin 4096) (q : Fin 1) :
    matmul dot_S4096x256_S256x1_S4096x1_1_0_0_1_n_n none l r (constant S4096x1 .f32 0x00000000#32) (ix2 p q)
      = ∑ k : Fin 256, l (ix2 p k) * r (ix2 k q) := by
  simp only [matmul]
  rw [Ideal.matmul_constant_zero_apply, ← Equiv.sum_comp (contrEquiv1 dot_S4096x256_S256x1_S4096x1_1_0_0_1_n_n 256 rfl rfl).symm]
  refine Finset.sum_congr rfl fun k _ => ?_
  have hk := contrEquiv1_symm_val dot_S4096x256_S256x1_S4096x1_1_0_0_1_n_n 256 rfl rfl k
  have el : dot_S4096x256_S256x1_S4096x1_1_0_0_1_n_n.lhsIdx (ix2 p q) ((contrEquiv1 dot_S4096x256_S256x1_S4096x1_1_0_0_1_n_n 256 rfl rfl).symm k) = ix2 p k := funext fun a => Fin.ext (by
    match a with
    | ⟨0, _⟩ => exact last_lhs_row _ _
    | ⟨1, _⟩ => exact (last_lhs_contr _ _).trans hk)
  have er : dot_S4096x256_S256x1_S4096x1_1_0_0_1_n_n.rhsIdx (ix2 p q) ((contrEquiv1 dot_S4096x256_S256x1_S4096x1_1_0_0_1_n_n 256 rfl rfl).symm k) = ix2 k q := funext fun a => Fin.ext (by
    match a with
    | ⟨0, _⟩ => exact (last_rhs_contr _ _).trans hk
    | ⟨1, _⟩ => exact last_rhs_col _ _)
  rw [el, er]

/-! ## The layers read at an entry -/

/-- The activation at an entry is `silu` of the affine value there. -/
theorem act_apply (z : FVec Ideal S4096x256 .f32) (i : S4096x256.Idx) : act z i = Cert.Mlp.silu (z i) := rfl

/-- The first layer's affine value at `(p, j)`: row `p` of the input block against column `j` of the weight block, plus
    entry `j` of the bias block. -/
theorem dense16_apply (x : Vec Ideal S1x4096x16 .f32) (w : Vec Ideal S1x16x256 .f32) (b : Vec Ideal S1x1x256 .f32)
    (p : Fin 4096) (j : Fin 256) :
    dense16 x w b (ix2 p j)
      = Cert.Mlp.affine (fun k : Fin 16 => x (ix3 (0 : Fin 1) p k)) (fun k => w (ix3 (0 : Fin 1) k j)) (b (ix3 (0 : Fin 1) (0 : Fin 1) j)) := by
  unfold dense16 Cert.Mlp.affine
  rw [addf_apply, first_product_apply, broadcastTo_1b_ab_apply, shapeCast_1ab_ab_apply]
  refine congrArg (· + _) (Finset.sum_congr rfl fun k _ => ?_)
  rw [truncf_apply, truncf_apply, shapeCast_1ab_ab_apply, shapeCast_1ab_ab_apply]

/-- A later hidden layer's affine value at `(p, j)`: row `p` of the previous activations against column `j` of the
    weight block, plus entry `j` of the bias block. -/
theorem dense256_apply (u : FVec Ideal S4096x256 .f32) (w : Vec Ideal S1x256x256 .f32) (b : Vec Ideal S1x1x256 .f32)
    (p : Fin 4096) (j : Fin 256) :
    dense256 u w b (ix2 p j)
      = Cert.Mlp.affine (fun k : Fin 256 => u (ix2 p k)) (fun k => w (ix3 (0 : Fin 1) k j)) (b (ix3 (0 : Fin 1) (0 : Fin 1) j)) := by
  unfold dense256 Cert.Mlp.affine
  rw [addf_apply, mid_product_apply, broadcastTo_1b_ab_apply, shapeCast_1ab_ab_apply]
  refine congrArg (· + _) (Finset.sum_congr rfl fun k _ => ?_)
  rw [truncf_apply, truncf_apply, shapeCast_1ab_ab_apply]

/-- The output layer's value at `(p, q)`: row `p` of the last activations against the weight column, plus the bias. -/
theorem denseOut_apply (u : FVec Ideal S4096x256 .f32) (w : Vec Ideal S1x256x1 .f32) (b : Vec Ideal S1x1x1 .f32)
    (p : Fin 4096) (q : Fin 1) :
    denseOut u w b (ix2 p q)
      = Cert.Mlp.affine (fun k : Fin 256 => u (ix2 p k)) (fun k => w (ix3 (0 : Fin 1) k q)) (b (ix3 (0 : Fin 1) (0 : Fin 1) q)) := by
  unfold denseOut Cert.Mlp.affine
  rw [addf_apply, last_product_apply, broadcastTo_1b_ab_apply, shapeCast_1ab_ab_apply]
  refine congrArg (· + _) (Finset.sum_congr rfl fun k _ => ?_)
  rw [truncf_apply, truncf_apply, shapeCast_1ab_ab_apply]

/-! ## The stored block, entry by entry -/

/-- Entry `(0, p, 0)` of the block the body stores is the member network at row `p` of the input block, the weights and
    biases read off the other eight blocks. -/
theorem stored_apply (x : Vec Ideal S1x4096x16 .f32) (w0 : Vec Ideal S1x16x256 .f32) (b0 : Vec Ideal S1x1x256 .f32)
    (w1 : Vec Ideal S1x256x256 .f32) (b1 : Vec Ideal S1x1x256 .f32) (w2 : Vec Ideal S1x256x256 .f32) (b2 : Vec Ideal S1x1x256 .f32)
    (wl : Vec Ideal S1x256x1 .f32) (bl : Vec Ideal S1x1x1 .f32) (u : Fin 1) (p : Fin 4096) (q : Fin 1) :
    k0_pay1 (k0_pay2 x w0 b0 w1 b1 w2 b2) wl bl (ix3 u p q)
      = Cert.Mlp.member (fun k => x (ix3 (0 : Fin 1) p k)) (fun k j => w0 (ix3 (0 : Fin 1) k j)) (fun j => b0 (ix3 (0 : Fin 1) (0 : Fin 1) j))
          (fun k j => w1 (ix3 (0 : Fin 1) k j)) (fun j => b1 (ix3 (0 : Fin 1) (0 : Fin 1) j))
          (fun k j => w2 (ix3 (0 : Fin 1) k j)) (fun j => b2 (ix3 (0 : Fin 1) (0 : Fin 1) j))
          (fun k => wl (ix3 (0 : Fin 1) k (0 : Fin 1))) (bl (ix3 (0 : Fin 1) (0 : Fin 1) (0 : Fin 1))) := by
  have hq : q = 0 := Subsingleton.elim _ _
  subst hq
  rw [storedPayload_eq, hiddenPayload_eq, shapeCast_ab_1ab_apply, denseOut_apply]
  unfold Cert.Mlp.member Cert.Mlp.layer
  simp only [act_apply, dense256_apply, dense16_apply]

end Cert.KernelIdeal.Body

end
-- ==== Proof.KernelValue.lean ====
/-
  From the blocks to the whole result array.

  The grid has one axis of 64 points, one per ensemble member. At point `t` every window's block index is `(t, 0, 0)` and
  every block spans its array's two trailing axes whole, so a block is exactly member `t`'s slice: entry `(0, a, b)` of
  a block is entry `(t, a, b)` of its array. The body's stored block at point `t` is therefore the specification read on
  slice `t` of the result, the 64 result blocks tile the result array, and the array ends holding the specification.
-/
import proofs.«167812_j773094113632_1_alg».proof.Proof.Gen.KernelIdeal.Value
import proofs.«167812_j773094113632_1_alg».proof.Proof.BodyValue

set_option maxRecDepth 16384

noncomputable section

namespace Cert.KernelIdeal.MlpValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The member a grid point works on. -/
def memberOf (t : Fin cfg0.N) : Fin 64 := Fin.cast N_0 t

theorem memberOf_val (t : Fin cfg0.N) : (memberOf t).val = t.val := rfl

theorem hz : (![0, 0, 0] : Fin 3 → Nat) = fun _ => 0 := funext fun a => by fin_cases a <;> rfl

/-! ## The index maps: every window's block index at point `t` is `(t, 0, 0)` (decided over the 64 points) -/

theorem idx_x : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_w0 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx_b0 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx_w1 : ∀ t : Fin cfg0.N, win0_3.index t (0 : Fin 3) = t.val ∧ win0_3.index t (1 : Fin 3) = 0 ∧ win0_3.index t (2 : Fin 3) = 0 :=
  (by decide +kernel : ∀ t : Fin grid0.N, _)
theorem idx_b1 : ∀ t : Fin cfg0.N, win0_4.index t (0 : Fin 3) = t.val ∧ win0_4.index t (1 : Fin 3) = 0 ∧ win0_4.index t (2 : Fin 3) = 0 :=
  (by decide +kernel : ∀ t : Fin grid0.N, _)
theorem idx_w2 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx_b2 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx_wl : ∀ t : Fin cfg0.N, win0_7.index t (0 : Fin 3) = t.val ∧ win0_7.index t (1 : Fin 3) = 0 ∧ win0_7.index t (2 : Fin 3) = 0 :=
  (by decide +kernel : ∀ t : Fin grid0.N, _)
theorem idx_bl : ∀ t : Fin cfg0.N, win0_8.index t (0 : Fin 3) = t.val ∧ win0_8.index t (1 : Fin 3) = 0 ∧ win0_8.index t (2 : Fin 3) = 0 :=
  (by decide +kernel : ∀ t : Fin grid0.N, _)
theorem idx_out : ∀ t : Fin cfg0.N, win0_9.index t (0 : Fin 3) = t.val ∧ win0_9.index t (1 : Fin 3) = 0 ∧ win0_9.index t (2 : Fin 3) = 0 :=
  (by decide +kernel : ∀ t : Fin grid0.N, _)

/-! ## The argument arrays as the region finds them, and the blocks at a point, at their literal types -/

abbrev xArr (c : Dev nD) : S64x4096x16.Idx → EReal := V m c main_arg0
abbrev w0Arr (c : Dev nD) : S64x16x256.Idx → EReal := V m c main_arg1
abbrev b0Arr (c : Dev nD) : S64x1x256.Idx → EReal := V m c main_arg2
abbrev w1Arr (c : Dev nD) : S64x256x256.Idx → EReal := V m c main_arg3
abbrev b1Arr (c : Dev nD) : S64x1x256.Idx → EReal := V m c main_arg4
abbrev w2Arr (c : Dev nD) : S64x256x256.Idx → EReal := V m c main_arg5
abbrev b2Arr (c : Dev nD) : S64x1x256.Idx → EReal := V m c main_arg6
abbrev wlArr (c : Dev nD) : S64x256x1.Idx → EReal := V m c main_arg7
abbrev blArr (c : Dev nD) : S64x1x1.Idx → EReal := V m c main_arg8

abbrev xBlk (c : Dev nD) (t : Fin cfg0.N) : Vec Ideal S1x4096x16 .f32 := iblk m c 0 t
abbrev w0Blk (c : Dev nD) (t : Fin cfg0.N) : Vec Ideal S1x16x256 .f32 := iblk m c 1 t
abbrev b0Blk (c : Dev nD) (t : Fin cfg0.N) : Vec Ideal S1x1x256 .f32 := iblk m c 2 t
abbrev w1Blk (c : Dev nD) (t : Fin cfg0.N) : Vec Ideal S1x256x256 .f32 := iblk m c 3 t
abbrev b1Blk (c : Dev nD) (t : Fin cfg0.N) : Vec Ideal S1x1x256 .f32 := iblk m c 4 t
abbrev w2Blk (c : Dev nD) (t : Fin cfg0.N) : Vec Ideal S1x256x256 .f32 := iblk m c 5 t
abbrev b2Blk (c : Dev nD) (t : Fin cfg0.N) : Vec Ideal S1x1x256 .f32 := iblk m c 6 t
abbrev wlBlk (c : Dev nD) (t : Fin cfg0.N) : Vec Ideal S1x256x1 .f32 := iblk m c 7 t
abbrev blBlk (c : Dev nD) (t : Fin cfg0.N) : Vec Ideal S1x1x1 .f32 := iblk m c 8 t

/-! ## A block is its member's slice -/

theorem xBlk_apply (c : Dev nD) (t : Fin cfg0.N) (p : Fin 4096) (k : Fin 16) :
    xBlk m c t (ix3 (0 : Fin 1) p k) = xArr m c (ix3 (memberOf t) p k) := by
  obtain ⟨e0, e1, e2⟩ := idx_x t
  show V m c main_arg0 (((cfg0.win 0).blk t).view.emb (ix3 (0 : Fin 1) p k)) = V m c main_arg0 (ix3 (memberOf t) p k)
  refine congrArg _ (funext fun a => Fin.ext ?_)
  match a with
  | ⟨0, _⟩ => show win0_0.index t (0 : Fin 3) * 1 + 1 * 0 = t.val; omega
  | ⟨1, _⟩ => show win0_0.index t (1 : Fin 3) * 4096 + 1 * p.val = p.val; omega
  | ⟨2, _⟩ => show win0_0.index t (2 : Fin 3) * 16 + 1 * k.val = k.val; omega

theorem w0Blk_apply (c : Dev nD) (t : Fin cfg0.N) (k : Fin 16) (j : Fin 256) :
    w0Blk m c t (ix3 (0 : Fin 1) k j) = w0Arr m c (ix3 (memberOf t) k j) := by
  obtain ⟨e0, e1, e2⟩ := idx_w0 t
  show V m c main_arg1 (((cfg0.win 1).blk t).view.emb (ix3 (0 : Fin 1) k j)) = V m c main_arg1 (ix3 (memberOf t) k j)
  refine congrArg _ (funext fun a => Fin.ext ?_)
  match a with
  | ⟨0, _⟩ => show win0_1.index t (0 : Fin 3) * 1 + 1 * 0 = t.val; omega
  | ⟨1, _⟩ => show win0_1.index t (1 : Fin 3) * 16 + 1 * k.val = k.val; omega
  | ⟨2, _⟩ => show win0_1.index t (2 : Fin 3) * 256 + 1 * j.val = j.val; omega

theorem b0Blk_apply (c : Dev nD) (t : Fin cfg0.N) (j : Fin 256) :
    b0Blk m c t (ix3 (0 : Fin 1) (0 : Fin 1) j) = b0Arr m c (ix3 (memberOf t) (0 : Fin 1) j) := by
  obtain ⟨e0, e1, e2⟩ := idx_b0 t
  show V m c main_arg2 (((cfg0.win 2).blk t).view.emb (ix3 (0 : Fin 1) (0 : Fin 1) j)) = V m c main_arg2 (ix3 (memberOf t) (0 : Fin 1) j)
  refine congrArg _ (funext fun a => Fin.ext ?_)
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 256 + 1 * j.val = j.val; omega

theorem w1Blk_apply (c : Dev nD) (t : Fin cfg0.N) (k : Fin 256) (j : Fin 256) :
    w1Blk m c t (ix3 (0 : Fin 1) k j) = w1Arr m c (ix3 (memberOf t) k j) := by
  obtain ⟨e0, e1, e2⟩ := idx_w1 t
  show V m c main_arg3 (((cfg0.win 3).blk t).view.emb (ix3 (0 : Fin 1) k j)) = V m c main_arg3 (ix3 (memberOf t) k j)
  refine congrArg _ (funext fun a => Fin.ext ?_)
  match a with
  | ⟨0, _⟩ => show win0_3.index t (0 : Fin 3) * 1 + 1 * 0 = t.val; omega
  | ⟨1, _⟩ => show win0_3.index t (1 : Fin 3) * 256 + 1 * k.val = k.val; omega
  | ⟨2, _⟩ => show win0_3.index t (2 : Fin 3) * 256 + 1 * j.val = j.val; omega

theorem b1Blk_apply (c : Dev nD) (t : Fin cfg0.N) (j : Fin 256) :
    b1Blk m c t (ix3 (0 : Fin 1) (0 : Fin 1) j) = b1Arr m c (ix3 (memberOf t) (0 : Fin 1) j) := by
  obtain ⟨e0, e1, e2⟩ := idx_b1 t
  show V m c main_arg4 (((cfg0.win 4).blk t).view.emb (ix3 (0 : Fin 1) (0 : Fin 1) j)) = V m c main_arg4 (ix3 (memberOf t) (0 : Fin 1) j)
  refine congrArg _ (funext fun a => Fin.ext ?_)
  match a with
  | ⟨0, _⟩ => show win0_4.index t (0 : Fin 3) * 1 + 1 * 0 = t.val; omega
  | ⟨1, _⟩ => show win0_4.index t (1 : Fin 3) * 1 + 1 * 0 = 0; omega
  | ⟨2, _⟩ => show win0_4.index t (2 : Fin 3) * 256 + 1 * j.val = j.val; omega

theorem w2Blk_apply (c : Dev nD) (t : Fin cfg0.N) (k : Fin 256) (j : Fin 256) :
    w2Blk m c t (ix3 (0 : Fin 1) k j) = w2Arr m c (ix3 (memberOf t) k j) := by
  obtain ⟨e0, e1, e2⟩ := idx_w2 t
  show V m c main_arg5 (((cfg0.win 5).blk t).view.emb (ix3 (0 : Fin 1) k j)) = V m c main_arg5 (ix3 (memberOf t) k j)
  refine congrArg _ (funext fun a => Fin.ext ?_)
  match a with
  | ⟨0, _⟩ => show win0_5.index t (0 : Fin 3) * 1 + 1 * 0 = t.val; omega
  | ⟨1, _⟩ => show win0_5.index t (1 : Fin 3) * 256 + 1 * k.val = k.val; omega
  | ⟨2, _⟩ => show win0_5.index t (2 : Fin 3) * 256 + 1 * j.val = j.val; omega

theorem b2Blk_apply (c : Dev nD) (t : Fin cfg0.N) (j : Fin 256) :
    b2Blk m c t (ix3 (0 : Fin 1) (0 : Fin 1) j) = b2Arr m c (ix3 (memberOf t) (0 : Fin 1) j) := by
  obtain ⟨e0, e1, e2⟩ := idx_b2 t
  show V m c main_arg6 (((cfg0.win 6).blk t).view.emb (ix3 (0 : Fin 1) (0 : Fin 1) j)) = V m c main_arg6 (ix3 (memberOf t) (0 : Fin 1) j)
  refine congrArg _ (funext fun a => Fin.ext ?_)
  match a with
  | ⟨0, _⟩ => show win0_6.index t (0 : Fin 3) * 1 + 1 * 0 = t.val; omega
  | ⟨1, _⟩ => show win0_6.index t (1 : Fin 3) * 1 + 1 * 0 = 0; omega
  | ⟨2, _⟩ => show win0_6.index t (2 : Fin 3) * 256 + 1 * j.val = j.val; omega

theorem wlBlk_apply (c : Dev nD) (t : Fin cfg0.N) (k : Fin 256) :
    wlBlk m c t (ix3 (0 : Fin 1) k (0 : Fin 1)) = wlArr m c (ix3 (memberOf t) k (0 : Fin 1)) := by
  obtain ⟨e0, e1, e2⟩ := idx_wl t
  show V m c main_arg7 (((cfg0.win 7).blk t).view.emb (ix3 (0 : Fin 1) k (0 : Fin 1))) = V m c main_arg7 (ix3 (memberOf t) k (0 : Fin 1))
  refine congrArg _ (funext fun a => Fin.ext ?_)
  match a with
  | ⟨0, _⟩ => show win0_7.index t (0 : Fin 3) * 1 + 1 * 0 = t.val; omega
  | ⟨1, _⟩ => show win0_7.index t (1 : Fin 3) * 256 + 1 * k.val = k.val; omega
  | ⟨2, _⟩ => show win0_7.index t (2 : Fin 3) * 1 + 1 * 0 = 0; omega

theorem blBlk_apply (c : Dev nD) (t : Fin cfg0.N) :
    blBlk m c t (ix3 (0 : Fin 1) (0 : Fin 1) (0 : Fin 1)) = blArr m c (ix3 (memberOf t) (0 : Fin 1) (0 : Fin 1)) := by
  obtain ⟨e0, e1, e2⟩ := idx_bl t
  show V m c main_arg8 (((cfg0.win 8).blk t).view.emb (ix3 (0 : Fin 1) (0 : Fin 1) (0 : Fin 1))) = V m c main_arg8 (ix3 (memberOf t) (0 : Fin 1) (0 : Fin 1))
  refine congrArg _ (funext fun a => Fin.ext ?_)
  match a with
  | ⟨0, _⟩ => show win0_8.index t (0 : Fin 3) * 1 + 1 * 0 = t.val; omega
  | ⟨1, _⟩ => show win0_8.index t (1 : Fin 3) * 1 + 1 * 0 = 0; omega
  | ⟨2, _⟩ => show win0_8.index t (2 : Fin 3) * 1 + 1 * 0 = 0; omega

/-- Entry `(u, p, q)` of the result block at point `t` sits at `(t, p, q)` in the result array. -/
theorem out_emb (t : Fin cfg0.N) (u : Fin 1) (p : Fin 4096) (q : Fin 1) :
    ((cfg0.win 9).blk t).view.emb (ix3 u p q) = ix3 (memberOf t) p q := by
  obtain ⟨e0, e1, e2⟩ := idx_out t
  have hu : u.val = 0 := by have := u.isLt; omega
  refine funext fun a => Fin.ext ?_
  match a with
  | ⟨0, _⟩ => show win0_9.index t (0 : Fin 3) * 1 + 1 * u.val = t.val; omega
  | ⟨1, _⟩ => show win0_9.index t (1 : Fin 3) * 4096 + 1 * p.val = p.val; omega
  | ⟨2, _⟩ => show win0_9.index t (2 : Fin 3) * 1 + 1 * q.val = q.val; omega

/-! ## What a point writes back, the cover, the final array -/

/-- The specification on the argument arrays as the region finds them. -/
abbrev spec (c : Dev nD) : S64x4096x1.Idx → EReal :=
  Cert.Mlp.G (xArr m c) (w0Arr m c) (b0Arr m c) (w1Arr m c) (b1Arr m c) (w2Arr m c) (b2Arr m c) (wlArr m c) (blArr m c)

/-- WHAT POINT `t` WRITES BACK is block `t` of the specification. -/
theorem flushed_eq (c : Dev nD) (t : Fin cfg0.N) :
    (dats m 0 c).flushed 9 t = ((cfg0.win 9).blk t).view.read (Elt Ideal) (spec m c) := by
  rw [Value.flushed9]
  unfold out0_9
  rw [View.canon_unit_zero hz]
  simp only [View.ld_unit_zero (S := S1x4096x16) hz, View.ld_unit_zero (S := S1x16x256) hz, View.ld_unit_zero (S := S1x1x256) hz,
    View.ld_unit_zero (S := S1x256x256) hz, View.ld_unit_zero (S := S1x256x1) hz, View.ld_unit_zero (S := S1x1x1) hz]
  show (k0_pay1 (k0_pay2 (xBlk m c t) (w0Blk m c t) (b0Blk m c t) (w1Blk m c t) (b1Blk m c t) (w2Blk m c t) (b2Blk m c t)) (wlBlk m c t) (blBlk m c t) : S1x4096x1.Idx → EReal)
    = fun y : S1x4096x1.Idx => spec m c (((cfg0.win 9).blk t).view.emb y)
  funext y
  obtain ⟨u, p, q, rfl⟩ : ∃ (u : Fin 1) (p : Fin 4096) (q : Fin 1), y = ix3 u p q := ⟨y 0, y 1, y 2, eq_ix3 y⟩
  show _ = spec m c (((cfg0.win 9).blk t).view.emb (ix3 u p q))
  rw [out_emb t u p q]
  refine (Cert.KernelIdeal.Body.stored_apply (xBlk m c t) (w0Blk m c t) (b0Blk m c t) (w1Blk m c t) (b1Blk m c t) (w2Blk m c t) (b2Blk m c t) (wlBlk m c t) (blBlk m c t) u p q).trans ?_
  show _ = Cert.Mlp.outAt (xArr m c) (w0Arr m c) (b0Arr m c) (w1Arr m c) (b1Arr m c) (w2Arr m c) (b2Arr m c) (wlArr m c) (blArr m c) (memberOf t) p
  unfold Cert.Mlp.outAt
  simp only [xBlk_apply, w0Blk_apply, b0Blk_apply, w1Blk_apply, b1Blk_apply, w2Blk_apply, b2Blk_apply, wlBlk_apply, blBlk_apply]

/-- An index of the result array is in point `t`'s block iff each coordinate is in the block's range on its axis. -/
theorem mem_blk (t : Fin cfg0.N) (i : S64x4096x1.Idx) :
    i ∈ ((cfg0.win 9).blk t).view.set ↔ ∀ a : Fin 3, win0_9.index t a * S1x4096x1.size a ≤ (i a).val ∧ (i a).val < win0_9.index t a * S1x4096x1.size a + S1x4096x1.size a := by
  show i ∈ ((View.whole main_v0).slice (win0_9.rect t)).set ↔ _
  rw [View.set_slice_whole, Rect.mem_set_unit]
  exact Iff.rfl

/-- The 64 result blocks cover the result array: entry `(e, p, q)` is in point `e`'s block. -/
theorem cover (i : S64x4096x1.Idx) : ∃ t : Fin cfg0.N, (cfg0.win 9).flush t = true ∧ i ∈ ((cfg0.win 9).blk t).view.set := by
  have h0 : (i 0).val < 64 := (i 0).isLt
  have h1 : (i 1).val < 4096 := (i 1).isLt
  have h2 : (i 2).val < 1 := (i 2).isLt
  refine ⟨Fin.cast N_0.symm ⟨(i 0).val, h0⟩, flush0_9 _, ?_⟩
  rw [mem_blk]
  obtain ⟨e0, e1, e2⟩ := idx_out (Fin.cast N_0.symm ⟨(i 0).val, h0⟩)
  have e0' : win0_9.index (Fin.cast N_0.symm ⟨(i 0).val, h0⟩) (0 : Fin 3) = (i 0).val := e0
  intro a
  match a with
  | ⟨0, _⟩ => show win0_9.index _ (0 : Fin 3) * 1 ≤ (i 0).val ∧ (i 0).val < win0_9.index _ (0 : Fin 3) * 1 + 1; omega
  | ⟨1, _⟩ => show win0_9.index _ (1 : Fin 3) * 4096 ≤ (i 1).val ∧ (i 1).val < win0_9.index _ (1 : Fin 3) * 4096 + 4096; omega
  | ⟨2, _⟩ => show win0_9.index _ (2 : Fin 3) * 1 ≤ (i 2).val ∧ (i 2).val < win0_9.index _ (2 : Fin 3) * 1 + 1; omega

/-- THE RESULT ARRAY after the run is the specification of the argument arrays. -/
theorem final (c : Dev nD) : (dats m 0 c).arrAt 9 cfg0.N = spec m c :=
  (dats m 0 c).arrAt_eq_of_cover 9 (spec m c) (fun t _ => flushed_eq m c t) cover

/-! ## The run, read -/

/-- Every weakly fair execution of the idealized kernel ends with the result array at the specification of the
    arguments, and the arguments unchanged. -/
theorem run : θ_run defs (onTc (τ := τ) (main (F := Ideal))) ⟨m, fun _ => 0, ρ⟩ fun r => ∀ c : Dev nD,
      r.2.mem ((c : Thread nD τ).loc main_v0)
        = Cert.Mlp.G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.MlpValue

end
-- ==== Proof.RefValue.lean ====
/-
  The reference's result, read one entry at a time.

  The reference works on all 64 members at once: a batched product over the member axis, the bias broadcast along the row
  axis, and the activation spelt `z · (1 / (1 + exp (-z)))`. Read at an entry `(e, p, j)`, a batched product only meets
  member `e`'s slices — row `p` of the left operand's slice against column `j` of the right operand's slice — and the
  broadcast bias is entry `(e, 0, j)`. So each hidden stage at `(e, p, j)` is unit `j` of the specification's layer on row
  `p` of the previous stage, and the result at `(e, p, 0)` is the specification's member network.
-/
import proofs.«167812_j773094113632_1_alg».proof.Proof.Gen.ReferenceIdeal.Read
import proofs.«167812_j773094113632_1_alg».proof.Proof.MlpSpec

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Where each stage reads its operands, by coordinates -/

theorem first_left (e : Fin 64) (p : Fin 4096) (j : Fin 256) (k : Fin 16) : lidx_main_v0 (ix3 e p j) k = ix3 e p k :=
  funext fun a => Fin.ext (by match a with | ⟨0, _⟩ => rfl | ⟨1, _⟩ => rfl | ⟨2, _⟩ => rfl)
theorem first_right (e : Fin 64) (p : Fin 4096) (j : Fin 256) (k : Fin 16) : ridx_main_v0 (ix3 e p j) k = ix3 e k j :=
  funext fun a => Fin.ext (by match a with | ⟨0, _⟩ => rfl | ⟨1, _⟩ => rfl | ⟨2, _⟩ => rfl)
theorem first_bias (e : Fin 64) (p : Fin 4096) (j : Fin 256) : idx_main_v1 (ix3 e p j) = ix3 e (0 : Fin 1) j :=
  funext fun a => Fin.ext (by match a with | ⟨0, _⟩ => rfl | ⟨1, _⟩ => rfl | ⟨2, _⟩ => rfl)

theorem second_left (e : Fin 64) (p : Fin 4096) (j : Fin 256) (k : Fin 256) : lidx_main_v4 (ix3 e p j) k = ix3 e p k :=
  funext fun a => Fin.ext (by match a with | ⟨0, _⟩ => rfl | ⟨1, _⟩ => rfl | ⟨2, _⟩ => rfl)
theorem second_right (e : Fin 64) (p : Fin 4096) (j : Fin 256) (k : Fin 256) : ridx_main_v4 (ix3 e p j) k = ix3 e k j :=
  funext fun a => Fin.ext (by match a with | ⟨0, _⟩ => rfl | ⟨1, _⟩ => rfl | ⟨2, _⟩ => rfl)
theorem second_bias (e : Fin 64) (p : Fin 4096) (j : Fin 256) : idx_main_v5 (ix3 e p j) = ix3 e (0 : Fin 1) j :=
  funext fun a => Fin.ext (by match a with | ⟨0, _⟩ => rfl | ⟨1, _⟩ => rfl | ⟨2, _⟩ => rfl)

theorem third_left (e : Fin 64) (p : Fin 4096) (j : Fin 256) (k : Fin 256) : lidx_main_v8 (ix3 e p j) k = ix3 e p k :=
  funext fun a => Fin.ext (by match a with | ⟨0, _⟩ => rfl | ⟨1, _⟩ => rfl | ⟨2, _⟩ => rfl)
theorem third_right (e : Fin 64) (p : Fin 4096) (j : Fin 256) (k : Fin 256) : ridx_main_v8 (ix3 e p j) k = ix3 e k j :=
  funext fun a => Fin.ext (by match a with | ⟨0, _⟩ => rfl | ⟨1, _⟩ => rfl | ⟨2, _⟩ => rfl)
theorem third_bias (e : Fin 64) (p : Fin 4096) (j : Fin 256) : idx_main_v9 (ix3 e p j) = ix3 e (0 : Fin 1) j :=
  funext fun a => Fin.ext (by match a with | ⟨0, _⟩ => rfl | ⟨1, _⟩ => rfl | ⟨2, _⟩ => rfl)

theorem out_left (e : Fin 64) (p : Fin 4096) (q : Fin 1) (k : Fin 256) : lidx_main_v12 (ix3 e p q) k = ix3 e p k :=
  funext fun a => Fin.ext (by match a with | ⟨0, _⟩ => rfl | ⟨1, _⟩ => rfl | ⟨2, _⟩ => rfl)
theorem out_right (e : Fin 64) (p : Fin 4096) (q : Fin 1) (k : Fin 256) : ridx_main_v12 (ix3 e p q) k = ix3 e k q :=
  funext fun a => Fin.ext (by match a with | ⟨0, _⟩ => rfl | ⟨1, _⟩ => rfl | ⟨2, _⟩ => rfl)
theorem out_bias (e : Fin 64) (p : Fin 4096) (q : Fin 1) : idx_main_v13 (ix3 e p q) = ix3 e (0 : Fin 1) (0 : Fin 1) :=
  funext fun a => Fin.ext (by match a with | ⟨0, _⟩ => rfl | ⟨1, _⟩ => rfl | ⟨2, _⟩ => rfl)

/-! ## The stages -/

/-- The first hidden stage at `(e, p, j)`: unit `j` of the first layer on row `p` of `x[e]`. -/
theorem first_stage (x0 : S64x4096x16.Idx → EReal) (x1 : S64x16x256.Idx → EReal) (x2 : S64x1x256.Idx → EReal)
    (e : Fin 64) (p : Fin 4096) (j : Fin 256) :
    val_main_v3 (F := Ideal) x0 x1 x2 (ix3 e p j)
      = Cert.Mlp.layer (fun k : Fin 16 => x0 (ix3 e p k)) (fun k j => x1 (ix3 e k j)) (fun j => x2 (ix3 e (0 : Fin 1) j)) j := by
  rw [val_main_v3_apply, val_main_call0_v5_apply, val_main_call0_v4_apply, val_main_call0_cst_0_apply, val_main_call0_v3_apply,
    val_main_call0_v2_apply, val_main_call0_cst_apply, val_main_call0_v1_apply, val_main_call0_v0_apply, val_main_v2_apply,
    val_main_v0_apply, val_main_v1_apply]
  simp only [first_left, first_right, first_bias, Ideal.mulf_def, Ideal.addf_def, Ideal.hostDivf_def, Ideal.hostUnary_exp_def,
    Ideal.hostNegf_def, Ideal.negf_def, Ideal.ofBits_def]
  rw [Cert.Mlp.silu_of_host]
  rfl

/-- The second hidden stage at `(e, p, j)`: unit `j` of the second layer on row `p` of the first stage's slice `e`. -/
theorem second_stage (x0 : S64x4096x16.Idx → EReal) (x1 : S64x16x256.Idx → EReal) (x2 : S64x1x256.Idx → EReal)
    (x3 : S64x256x256.Idx → EReal) (x4 : S64x1x256.Idx → EReal) (e : Fin 64) (p : Fin 4096) (j : Fin 256) :
    val_main_v7 (F := Ideal) x0 x1 x2 x3 x4 (ix3 e p j)
      = Cert.Mlp.layer (fun k : Fin 256 => val_main_v3 (F := Ideal) x0 x1 x2 (ix3 e p k)) (fun k j => x3 (ix3 e k j)) (fun j => x4 (ix3 e (0 : Fin 1) j)) j := by
  rw [val_main_v7_apply, val_main_call1_v5_apply, val_main_call1_v4_apply, val_main_call1_cst_0_apply, val_main_call1_v3_apply,
    val_main_call1_v2_apply, val_main_call1_cst_apply, val_main_call1_v1_apply, val_main_call1_v0_apply, val_main_v6_apply,
    val_main_v4_apply, val_main_v5_apply]
  simp only [second_left, second_right, second_bias, Ideal.mulf_def, Ideal.addf_def, Ideal.hostDivf_def, Ideal.hostUnary_exp_def,
    Ideal.hostNegf_def, Ideal.negf_def, Ideal.ofBits_def]
  rw [Cert.Mlp.silu_of_host]
  rfl

/-- The third hidden stage at `(e, p, j)`: unit `j` of the third layer on row `p` of the second stage's slice `e`. -/
theorem third_stage (x0 : S64x4096x16.Idx → EReal) (x1 : S64x16x256.Idx → EReal) (x2 : S64x1x256.Idx → EReal)
    (x3 : S64x256x256.Idx → EReal) (x4 : S64x1x256.Idx → EReal) (x5 : S64x256x256.Idx → EReal) (x6 : S64x1x256.Idx → EReal)
    (e : Fin 64) (p : Fin 4096) (j : Fin 256) :
    val_main_v11 (F := Ideal) x0 x1 x2 x3 x4 x5 x6 (ix3 e p j)
      = Cert.Mlp.layer (fun k : Fin 256 => val_main_v7 (F := Ideal) x0 x1 x2 x3 x4 (ix3 e p k)) (fun k j => x5 (ix3 e k j)) (fun j => x6 (ix3 e (0 : Fin 1) j)) j := by
  rw [val_main_v11_apply, val_main_call2_v5_apply, val_main_call2_v4_apply, val_main_call2_cst_0_apply, val_main_call2_v3_apply,
    val_main_call2_v2_apply, val_main_call2_cst_apply, val_main_call2_v1_apply, val_main_call2_v0_apply, val_main_v10_apply,
    val_main_v8_apply, val_main_v9_apply]
  simp only [third_left, third_right, third_bias, Ideal.mulf_def, Ideal.addf_def, Ideal.hostDivf_def, Ideal.hostUnary_exp_def,
    Ideal.hostNegf_def, Ideal.negf_def, Ideal.ofBits_def]
  rw [Cert.Mlp.silu_of_host]
  rfl

/-- The result at `(e, p, q)`: the output unit on row `p` of the third stage's slice `e`. -/
theorem out_stage (x0 : S64x4096x16.Idx → EReal) (x1 : S64x16x256.Idx → EReal) (x2 : S64x1x256.Idx → EReal)
    (x3 : S64x256x256.Idx → EReal) (x4 : S64x1x256.Idx → EReal) (x5 : S64x256x256.Idx → EReal) (x6 : S64x1x256.Idx → EReal)
    (x7 : S64x256x1.Idx → EReal) (x8 : S64x1x1.Idx → EReal) (e : Fin 64) (p : Fin 4096) (q : Fin 1) :
    val_main_v14 (F := Ideal) x0 x1 x2 x3 x4 x5 x6 x7 x8 (ix3 e p q)
      = Cert.Mlp.affine (fun k : Fin 256 => val_main_v11 (F := Ideal) x0 x1 x2 x3 x4 x5 x6 (ix3 e p k)) (fun k => x7 (ix3 e k q)) (x8 (ix3 e (0 : Fin 1) (0 : Fin 1))) := by
  rw [val_main_v14_apply, val_main_v12_apply, val_main_v13_apply]
  simp only [out_left, out_right, out_bias, Ideal.addf_def]
  rfl

/-! ## The reference's result is the specification -/

/-- The reference's result array is `Cert.Mlp.G` of its nine arguments. -/
theorem result_eq (x0 : S64x4096x16.Idx → EReal) (x1 : S64x16x256.Idx → EReal) (x2 : S64x1x256.Idx → EReal)
    (x3 : S64x256x256.Idx → EReal) (x4 : S64x1x256.Idx → EReal) (x5 : S64x256x256.Idx → EReal) (x6 : S64x1x256.Idx → EReal)
    (x7 : S64x256x1.Idx → EReal) (x8 : S64x1x1.Idx → EReal) :
    val_main_v14 (F := Ideal) x0 x1 x2 x3 x4 x5 x6 x7 x8 = Cert.Mlp.G x0 x1 x2 x3 x4 x5 x6 x7 x8 := by
  funext i
  obtain ⟨e, p, q, rfl⟩ : ∃ (e : Fin 64) (p : Fin 4096) (q : Fin 1), i = ix3 e p q := ⟨i 0, i 1, i 2, eq_ix3 i⟩
  have hq : q = 0 := Subsingleton.elim _ _
  subst hq
  rw [Cert.Mlp.G_ix3, out_stage]
  unfold Cert.Mlp.outAt Cert.Mlp.member
  simp only [third_stage, second_stage, first_stage]

end Cert.ReferenceIdeal.RefValue

end
-- ==== Proof.lean ====
/- The proof of `Cert.Claim` (proofs.«167812_j773094113632_1_alg».proof.Defs): an ensemble of 64 independent three-hidden-layer
   perceptrons, one grid point per member, against the batched jnp reference.

   Both programs compute, at result entry `(e, p, 0)`, member `e`'s network on row `p` of `x[e]`
   (Proof/MlpSpec.lean: `Cert.Mlp.G`): three hidden layers `h ↦ s(h · W + b)` with `s(z) = z · 1/(1 + e^(-z))`, then
   the output unit `h · wl + bl`. On the extended reals the kernel's narrowing of a product's operands to bf16 is the
   identity, its product into a zero accumulator and the host's batched product are the same finite sums over the
   contracted axis, and the kernel's logistic IS the host's `1 / (1 + exp (-z))` (its definition). No law that needs
   finite inputs is used: the two sides are the same sums of the same products in the same operand order.

   Proof/BodyValue.lean reads the block the kernel body stores entry by entry; Proof/KernelValue.lean carries it from the
   64 blocks to the whole result array (each block is its member's slice, the blocks tile the array); Proof/RefValue.lean
   reads the reference's result entry by entry. The three frames are the generated ones, and the idealization rewrote
   nothing, so `preserves` is trivial. -/
import proofs.«167812_j773094113632_1_alg».proof.Defs
import proofs.«167812_j773094113632_1_alg».proof.Proof.Gen.Kernel
import proofs.«167812_j773094113632_1_alg».proof.Proof.Gen.Kernel.Skeleton
import proofs.«167812_j773094113632_1_alg».proof.Proof.Gen.Kernel.Launch
import proofs.«167812_j773094113632_1_alg».proof.Proof.Gen.Kernel.Points
import proofs.«167812_j773094113632_1_alg».proof.Proof.Gen.Kernel.Frame
import proofs.«167812_j773094113632_1_alg».proof.Proof.Gen.KernelIdeal
import proofs.«167812_j773094113632_1_alg».proof.Proof.Gen.KernelIdeal.Skeleton
import proofs.«167812_j773094113632_1_alg».proof.Proof.Gen.KernelIdeal.Launch
import proofs.«167812_j773094113632_1_alg».proof.Proof.Gen.KernelIdeal.Points
import proofs.«167812_j773094113632_1_alg».proof.Proof.Gen.KernelIdeal.Frame
import proofs.«167812_j773094113632_1_alg».proof.Proof.Gen.ReferenceIdeal
import proofs.«167812_j773094113632_1_alg».proof.Proof.Gen.Pre_finite_inputs
import proofs.«167812_j773094113632_1_alg».proof.Proof.Gen.KernelIdeal.Value
import proofs.«167812_j773094113632_1_alg».proof.Proof.Gen.ReferenceIdeal.Run
import proofs.«167812_j773094113632_1_alg».proof.Proof.Gen.ReferenceIdeal.Read
import proofs.«167812_j773094113632_1_alg».proof.Proof.KernelValue
import proofs.«167812_j773094113632_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the nine arguments both programs end with the result array at `Cert.Mlp.G` of those
    arguments: the kernel by its blocks (Proof/KernelValue.lean), the reference by its stages (Proof/RefValue.lean). -/
theorem algebraic : Cert.algebraic_KernelIdeal_ReferenceIdeal := by
  intro m ρ m' ρ' _ hagree
  refine ⟨_, Cert.KernelIdeal.MlpValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
